-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S64x262144 : Shape := ⟨2, ![64, 262144]⟩
abbrev S64x128 : Shape := ⟨2, ![64, 128]⟩
abbrev S8x131072 : Shape := ⟨2, ![8, 131072]⟩
abbrev S8x128 : Shape := ⟨2, ![8, 128]⟩
abbrev S8x1 : Shape := ⟨2, ![8, 1]⟩
abbrev S8 : Shape := ⟨1, ![8]⟩
abbrev S64x1 : Shape := ⟨2, ![64, 1]⟩
abbrev S64 : Shape := ⟨1, ![64]⟩
abbrev S_ : Shape := ⟨0, ![]⟩

abbrev nBuf : Space → Nat
  | .hbm => 38
  | .vmem => 13
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x262144, .f32⟩
  | .hbm, ⟨3, _⟩ => ⟨S64x262144, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x1, .f32⟩
  | .hbm, ⟨8, _⟩ => ⟨S64, .f32⟩
  | .hbm, ⟨9, _⟩ => ⟨S64x1, .f32⟩
  | .hbm, ⟨10, _⟩ => ⟨S64, .f32⟩
  | .hbm, ⟨11, _⟩ => ⟨S64x1, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .i1⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S8x131072, .f32⟩
  | .local _ .vmem, ⟨1, _⟩ => ⟨S8x131072, .f32⟩
  | .local _ .vmem, ⟨2, _⟩ => ⟨S8x131072, .f32⟩
  | .local _ .vmem, ⟨3, _⟩ => ⟨S8x131072, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x1, .f32⟩
  | .local _ .vmem, ⟨11, _⟩ => ⟨S8x1, .f32⟩
  | .local _ .vmem, ⟨12, _⟩ => ⟨S8x1, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64x1x512x512_S64x262144 : S64x1x512x512.ShapeCasts S64x262144
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x131072_S8x131072_0_0 : ∀ a, (![0, 0] : Fin 2 → Nat) a + S8x131072.size a ≤ S8x131072.size a
  h_S8x131072 : 0 < S8x131072.numel
  shapeCasts_S8x131072_S8x131072 : S8x131072.ShapeCasts S8x131072
  reduces_S8x131072_S8 : S8x131072.Reduces [1] S8
  shapeCasts_S8_S8x1 : S8.ShapeCasts S8x1
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S64x128_S64x1_0_0 : S64x128.Slices ![0, 0] S64x1
  shapeCasts_S64x1_S64 : S64x1.ShapeCasts S64
  bcast_S_S64 : S_.BroadcastsInDim S64 (![] : Fin 0 → Fin S64.rank)
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x131072.size a ≤ S64x262144.size a
  hwx0_0 : ∀ i : grid0.Coords, EltTy.bits .f32 = 32 ∨ (Rect.block (s := S64x262144) S8x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x131072.size a ≤ S64x262144.size a
  hwx0_1 : ∀ i : grid0.Coords, EltTy.bits .f32 = 32 ∨ (Rect.block (s := S64x262144) S8x131072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S64x128.size a
  hwx0_3 : ∀ i : grid0.Coords, EltTy.bits .f32 = 32 ∨ (Rect.block (s := S64x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S64x128.size a
  hwx0_4 : ∀ i : grid0.Coords, EltTy.bits .f32 = 32 ∨ (Rect.block (s := S64x128) S8x128.size (cc0_transform_4 i) (hinb0_4 i)).WholeWords (EltTy.packing .f32)

variable [Facts₀]

abbrev win0_0 : Pipeline.Window sig grid0 :=
  Pipeline.Window.ofSpec (Memref.whole main_v0) S8x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x1x512x512 : Shape := ⟨4, ![64, 1, 512, 512]⟩
abbrev S64x262144 : Shape := ⟨2, ![64, 262144]⟩
abbrev S_ : Shape := ⟨0, ![]⟩
abbrev S64 : Shape := ⟨1, ![64]⟩

abbrev nBuf : Space → Nat
  | .hbm => 36
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x262144, .f32⟩
  | .hbm, ⟨3, _⟩ => ⟨S64x262144, .f32⟩
  | .hbm, ⟨4, _⟩ => ⟨S_, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64x262144, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .i1⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_cst_9 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  shapeCasts_S64x1x512x512_S64x262144 : S64x1x512x512.ShapeCasts S64x262144
  reducesTo_S64x262144_S64_d1 : S64x262144.ReducesTo [1] S64
  h_S_ : 0 < S_.numel
  bcast_S_S64 : S_.BroadcastsInDim S64 (![] : Fin 0 → Fin S64.rank)
  reducesTo_S64_S_d0 : S64.ReducesTo [0] S_

variable [Facts₀]

class Facts : Prop extends Facts₀ where

variable [Facts]
-- ==== Proof.CaseValues.lean ====
/-
  What one run of the kernel body leaves behind, read as values.

  The body keeps three per-row accumulators (eight rows by one lane each) across the two grid points of a row chunk:
  the lane sum of the first operand's block, of the second operand's block, and of their elementwise product. At the
  FIRST point of a chunk it resets each accumulator to zero and then adds that point's lane sum onto what it reads back
  (the zero it has just stored). At the SECOND point it adds that point's lane sum onto what the first point left, and
  then copies each accumulator, broadcast along 128 lanes, into its output block. The frame run records these stores as
  lists of written pieces; the lemmas below read each list back as the stored payload: a whole-buffer store covers the
  buffer, and a load that follows a covering store reads what was stored.
-/
import proofs.«100748_j24386824307351_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

/-- Every staging buffer and accumulator is addressed from offset (0, 0). -/
theorem hz : (![0, 0] : Fin 2 → Nat) = fun _ => 0 := funext fun a => by fin_cases a <;> rfl

-- The grid point, the two input staging buffers, the three output staging buffers and the three accumulators a run of
-- the body is handed, each a whole buffer.
variable (c : Dev nD) (i : grid0.Coords)
  (arg2 : Memref sig .tc .vmem S8x131072 .f32) (harg2 : arg2.IsWhole)
  (arg3 : Memref sig .tc .vmem S8x131072 .f32) (harg3 : arg3.IsWhole)
  (arg4 : Memref sig .tc .vmem S8x128 .f32) (harg4 : arg4.IsWhole)
  (arg5 : Memref sig .tc .vmem S8x128 .f32) (harg5 : arg5.IsWhole)
  (arg6 : Memref sig .tc .vmem S8x128 .f32) (harg6 : arg6.IsWhole)
  (arg7 : Memref sig .tc .vmem S8x1 .f32) (harg7 : arg7.IsWhole)
  (arg8 : Memref sig .tc .vmem S8x1 .f32) (harg8 : arg8.IsWhole)
  (arg9 : Memref sig .tc .vmem S8x1 .f32) (harg9 : arg9.IsWhole)

/-! ## First point of a row chunk: reset, then the first half's lane sums -/

/-- Accumulator of the first operand after the first point: zero plus the lane sum of its block x0. -/
theorem reset_0 (hc0 : cond0_0 i) (hc1 : ¬cond0_1 i) (x0 x1 : Vec F S8x131072 .f32) :
    sout0_A_0 c i arg2 harg2 arg3 harg3 arg4 harg4 arg5 harg5 arg6 harg6 arg7 harg7 arg8 harg8 arg9 harg9 hc0 hc1 x0 x1
      = k0_pay9 x0 (k0_pay4 (F := F)) := by
  unfold sout0_A_0
  rw [View.read_writes_eq_canon _ _ _
    (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S8x1) hz, View.readCov_unit_zero (S := S8x1) _ hz]
  simp only [View.readAt_eq_ld, harg2.read_unread, View.ld_unit_zero (S := S8x131072) hz]

/-- Accumulator of the second operand after the first point: zero plus the lane sum of its block x1. -/
theorem reset_1 (hc0 : cond0_0 i) (hc1 : ¬cond0_1 i) (x0 x1 : Vec F S8x131072 .f32) :
    sout0_A_1 c i arg2 harg2 arg3 harg3 arg4 harg4 arg5 harg5 arg6 harg6 arg7 harg7 arg8 harg8 arg9 harg9 hc0 hc1 x0 x1
      = k0_pay10 x1 (k0_pay5 (F := F)) := by
  unfold sout0_A_1
  rw [View.read_writes_eq_canon _ _ _
    (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S8x1) hz, View.readCov_unit_zero (S := S8x1) _ hz]
  simp only [View.readAt_eq_ld, harg3.read_unread, View.ld_unit_zero (S := S8x131072) hz]

/-- Accumulator of the product after the first point: zero plus the lane sum of x0 * x1. -/
theorem reset_2 (hc0 : cond0_0 i) (hc1 : ¬cond0_1 i) (x0 x1 : Vec F S8x131072 .f32) :
    sout0_A_2 c i arg2 harg2 arg3 harg3 arg4 harg4 arg5 harg5 arg6 harg6 arg7 harg7 arg8 harg8 arg9 harg9 hc0 hc1 x0 x1
      = k0_pay11 x0 x1 (k0_pay6 (F := F)) := by
  unfold sout0_A_2
  rw [View.read_writes_eq_canon _ _ _
    (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S8x1) hz, View.readCov_unit_zero (S := S8x1) _ hz]
  simp only [View.readAt_eq_ld, harg2.read_unread, harg3.read_unread, View.ld_unit_zero (S := S8x131072) hz]

/-! ## Second point of a row chunk: carry on from what the first point left (xs0, xs1, xs2) -/

/-- Accumulator of the first operand after the second point: the carried value plus this block's lane sum. -/
theorem carry_0 (hc0 : ¬cond0_0 i) (hc1 : cond0_1 i) (x0 x1 : Vec F S8x131072 .f32) (xs0 xs1 xs2 : Vec F S8x1 .f32) :
    sout0_B_0 c i arg2 harg2 arg3 harg3 arg4 harg4 arg5 harg5 arg6 harg6 arg7 harg7 arg8 harg8 arg9 harg9 hc0 hc1 x0 x1 xs0 xs1 xs2
      = k0_pay9 x0 xs0 := by
  unfold sout0_B_0
  rw [View.read_writes_eq_canon _ _ _
    (scover0_B_0 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz]
  simp only [View.readAt_eq_ld, harg2.read_unread, harg7.read_unread, View.ld_unit_zero (S := S8x131072) hz,
    View.ld_unit_zero (S := S8x1) hz]

/-- Accumulator of the second operand after the second point. -/
theorem carry_1 (hc0 : ¬cond0_0 i) (hc1 : cond0_1 i) (x0 x1 : Vec F S8x131072 .f32) (xs0 xs1 xs2 : Vec F S8x1 .f32) :
    sout0_B_1 c i arg2 harg2 arg3 harg3 arg4 harg4 arg5 harg5 arg6 harg6 arg7 harg7 arg8 harg8 arg9 harg9 hc0 hc1 x0 x1 xs0 xs1 xs2
      = k0_pay10 x1 xs1 := by
  unfold sout0_B_1
  rw [View.read_writes_eq_canon _ _ _
    (scover0_B_1 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz]
  simp only [View.readAt_eq_ld, harg3.read_unread, harg8.read_unread, View.ld_unit_zero (S := S8x131072) hz,
    View.ld_unit_zero (S := S8x1) hz]

/-- Accumulator of the product after the second point. -/
theorem carry_2 (hc0 : ¬cond0_0 i) (hc1 : cond0_1 i) (x0 x1 : Vec F S8x131072 .f32) (xs0 xs1 xs2 : Vec F S8x1 .f32) :
    sout0_B_2 c i arg2 harg2 arg3 harg3 arg4 harg4 arg5 harg5 arg6 harg6 arg7 harg7 arg8 harg8 arg9 harg9 hc0 hc1 x0 x1 xs0 xs1 xs2
      = k0_pay11 x0 x1 xs2 := by
  unfold sout0_B_2
  rw [View.read_writes_eq_canon _ _ _
    (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz]
  simp only [View.readAt_eq_ld, harg2.read_unread, harg3.read_unread, harg9.read_unread,
    View.ld_unit_zero (S := S8x131072) hz, View.ld_unit_zero (S := S8x1) hz]

/-- The first output block: the first operand's finished accumulator, broadcast along the lanes. The load that feeds
    the broadcast follows the accumulator's covering store and reads it. -/
theorem emit_2 (hc0 : ¬cond0_0 i) (hc1 : cond0_1 i) (x0 x1 : Vec F S8x131072 .f32) (xs0 xs1 xs2 : Vec F S8x1 .f32) :
    out0_B_2 c i arg2 harg2 arg3 harg3 arg4 harg4 arg5 harg5 arg6 harg6 arg7 harg7 arg8 harg8 arg9 harg9 hc0 hc1 x0 x1 xs0 xs1 xs2
      = k0_pay1 (k0_pay9 x0 xs0) := by
  unfold out0_B_2
  rw [View.read_writes_eq_canon _ _ _
    (cover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz]
  simp only [View.readAt_eq_ld, harg2.read_unread, harg7.read_unread, View.ld_unit_zero (S := S8x131072) hz,
    View.ld_unit_zero (S := S8x1) hz, View.readCov_unit_zero (S := S8x1) _ hz]

/-- The second output block: the second operand's finished accumulator, broadcast along the lanes. -/
theorem emit_3 (hc0 : ¬cond0_0 i) (hc1 : cond0_1 i) (x0 x1 : Vec F S8x131072 .f32) (xs0 xs1 xs2 : Vec F S8x1 .f32) :
    out0_B_3 c i arg2 harg2 arg3 harg3 arg4 harg4 arg5 harg5 arg6 harg6 arg7 harg7 arg8 harg8 arg9 harg9 hc0 hc1 x0 x1 xs0 xs1 xs2
      = k0_pay2 (k0_pay10 x1 xs1) := by
  unfold out0_B_3
  rw [View.read_writes_eq_canon _ _ _
    (cover0_B_3 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz]
  simp only [View.readAt_eq_ld, harg3.read_unread, harg8.read_unread, View.ld_unit_zero (S := S8x131072) hz,
    View.ld_unit_zero (S := S8x1) hz, View.readCov_unit_zero (S := S8x1) _ hz]

/-- The third output block: the product's finished accumulator, broadcast along the lanes. -/
theorem emit_4 (hc0 : ¬cond0_0 i) (hc1 : cond0_1 i) (x0 x1 : Vec F S8x131072 .f32) (xs0 xs1 xs2 : Vec F S8x1 .f32) :
    out0_B_4 c i arg2 harg2 arg3 harg3 arg4 harg4 arg5 harg5 arg6 harg6 arg7 harg7 arg8 harg8 arg9 harg9 hc0 hc1 x0 x1 xs0 xs1 xs2
      = k0_pay3 (k0_pay11 x0 x1 xs2) := by
  unfold out0_B_4
  rw [View.read_writes_eq_canon _ _ _
    (cover0_B_4 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz]
  simp only [View.readAt_eq_ld, harg2.read_unread, harg3.read_unread, harg9.read_unread,
    View.ld_unit_zero (S := S8x131072) hz, View.ld_unit_zero (S := S8x1) hz, View.readCov_unit_zero (S := S8x1) _ hz]

end Cert.KernelIdeal.CaseValues

end
-- ==== Proof.Chunks.lean ====
/-
  The accumulation across the two grid points of a row chunk.

  The grid runs its 16 points in order; point t works on row chunk t / 2 and on half t % 2 of the lanes. An even point
  is the first of its chunk (it resets the accumulators), an odd point the second (it finishes them and writes the three
  output blocks). So what an odd point writes depends only on its own two input blocks and on the accumulators the
  point just before it left, and those depend only on that point's input blocks: no induction over the grid is needed,
  one step back suffices.
-/
import proofs.«100748_j24386824307351_1_alg».proof.Proof.CaseValues

noncomputable section

open Idealize.ShloMosaic Idealize.ShloMosaic.TcCoe Idealize.SL.Sem

namespace Cert.KernelIdeal.Chunks

open Cert.KernelIdeal Cert.KernelIdeal.Gen

variable {F : FTy → Type} [FloatOps F]
variable (m : (ℓ : Loc nD τ sig) → Buf (Elt F) ℓ)

/-- The first operand's block at point t: eight rows by 131072 lanes of the first reshaped argument. -/
abbrev pblk (c : Dev nD) (t : Fin cfg0.N) : Vec F S8x131072 .f32 := iblk m c 0 t
/-- The second operand's block at point t. -/
abbrev tblk (c : Dev nD) (t : Fin cfg0.N) : Vec F S8x131072 .f32 := iblk m c 1 t

/-- After the first point of a chunk the three accumulators hold the reset value plus that point's lane sums. -/
theorem first_point (c : Dev nD) (t : Fin cfg0.N) (h0 : t.val % 2 = 0) :
    (outsAt0 m c t.val t.isLt).2.2.2
      = (k0_pay9 (pblk m c t) (k0_pay4 (F := F)), k0_pay10 (tblk m c t) (k0_pay5 (F := F)),
          k0_pay11 (pblk m c t) (tblk m c t) (k0_pay6 (F := F))) := by
  have h1 : ¬t.val % 2 = 1 := by omega
  rw [outsAt0_A m c t h0 h1]
  dsimp only
  rw [CaseValues.reset_0, CaseValues.reset_1, CaseValues.reset_2]

/-- After the second point of a chunk each output block is the broadcast of its accumulator, updated once more from
    what the point before left (s0, s1, s2). -/
theorem second_point (c : Dev nD) (t : Fin cfg0.N) (h1 : t.val % 2 = 1) (s0 s1 s2 : Vec F S8x1 .f32)
    (hs : (outsAt0 m c (t.val - 1) (Nat.lt_of_le_of_lt (Nat.sub_le _ _) t.isLt)).2.2.2 = (s0, s1, s2)) :
    (outsAt0 m c t.val t.isLt).1 = k0_pay1 (k0_pay9 (pblk m c t) s0)
    ∧ (outsAt0 m c t.val t.isLt).2.1 = k0_pay2 (k0_pay10 (tblk m c t) s1)
    ∧ (outsAt0 m c t.val t.isLt).2.2.1 = k0_pay3 (k0_pay11 (pblk m c t) (tblk m c t) s2) := by
  have h0 : ¬t.val % 2 = 0 := by omega
  rw [outsAt0_B m c t h0 h1]
  dsimp only
  rw [CaseValues.emit_2, CaseValues.emit_3, CaseValues.emit_4]
  have e0 := congrArg (fun p => p.1) hs
  have e1 := congrArg (fun p => p.2.1) hs
  have e2 := congrArg (fun p => p.2.2) hs
  dsimp only at e0 e1 e2
  rw [e0, e1, e2]
  exact ⟨rfl, rfl, rfl⟩

/-- Both steps together: what the second point of a chunk writes, from the two points' input blocks alone. -/
theorem chunk_outputs (c : Dev nD) (t t' : Fin cfg0.N) (h1 : t.val % 2 = 1) (ht' : t'.val = t.val - 1) :
    (outsAt0 m c t.val t.isLt).1 = k0_pay1 (k0_pay9 (pblk m c t) (k0_pay9 (pblk m c t') (k0_pay4 (F := F))))
    ∧ (outsAt0 m c t.val t.isLt).2.1 = k0_pay2 (k0_pay10 (tblk m c t) (k0_pay10 (tblk m c t') (k0_pay5 (F := F))))
    ∧ (outsAt0 m c t.val t.isLt).2.2.1
        = k0_pay3 (k0_pay11 (pblk m c t) (tblk m c t) (k0_pay11 (pblk m c t') (tblk m c t') (k0_pay6 (F := F)))) := by
  have h0' : t'.val % 2 = 0 := by omega
  obtain rfl : t' = ⟨t.val - 1, Nat.lt_of_le_of_lt (Nat.sub_le _ _) t.isLt⟩ := Fin.ext ht'
  exact second_point m c t h1 _ _ _ (first_point m c _ h0')

end Cert.KernelIdeal.Chunks

end
-- ==== Proof.LaneSums.lean ====
/-
  The body's stored values read at one element, over the extended reals.

  An accumulator update is, at row a, the value the accumulator held there plus the sum over the 131072 lanes of that
  row of the operand block (or of the product of the two operand blocks): the lane reduction is a plain finite sum,
  its result re-laid from a vector of 8 to a column of 8 by 1, and the same-shape casts around it change nothing. The
  reset stores the zero word at every element. An output block repeats the accumulator's row value on every one of its
  128 lanes.
-/
import proofs.«100748_j24386824307351_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.LaneSums

open Cert.KernelIdeal Cert.KernelIdeal.Gen

/-- The lane reduction of an [8, 131072] block at row a is the sum of that row's 131072 entries. (The two proof
    arguments are typed as the printed operation carries them.) -/
theorem lane_sum (x : FVec Ideal S8x131072 .f32) (hφ : FKind.Formats .f32)
    (hacc : (0x00000000#32 : BitVec 32) = 0x00000000#32) (a : Fin 8) :
    multiReduction (F := Ideal) .add [1] S8 x 0x00000000#32 reduces_S8x131072_S8 hφ hacc (ix1 a)
      = ∑ k : Fin 131072, x (ix2 a k) := by
  refine (Ideal.multiReduction_add_single x 0x00000000#32 reduces_S8x131072_S8 hφ hacc (ix1 a)).trans ?_
  exact Finset.sum_congr rfl fun k _ => congrArg x (funext fun d => Fin.ext (by
    match d with
    | ⟨0, _⟩ => rfl
    | ⟨1, _⟩ => rfl))

/-- A vector of 8 re-laid as a column of 8 by 1 holds, at (a, 0), the vector's entry a: both sit at row-major
    position a. -/
theorem col_of_row (y : FVec Ideal S8 .f32) (a : Fin 8) (u : Fin 1) :
    shapeCast S8x1 y shapeCasts_S8_S8x1 (ix2 a u) = y (ix1 a) :=
  shapeCast_apply y shapeCasts_S8_S8x1 (ix2 a u) (ix1 a) (by
    rw [Shape.rowMajor_val_two, Shape.rowMajor_val_one]
    have hu : u.val = 0 := by omega
    show a.val = a.val * 1 + u.val
    omega)

/-- The first operand's accumulator update at row a: what it held plus the row sum of the block. -/
theorem acc_first (x : Vec Ideal S8x131072 .f32) (v : Vec Ideal S8x1 .f32) (a : Fin 8) (u : Fin 1) :
    k0_pay9 (F := Ideal) x v (ix2 a u) = v (ix2 a u) + ∑ k : Fin 131072, x (ix2 a k) := by
  unfold k0_pay9 k0_pay7
  dsimp only
  refine (congrFun (shapeCast_self _ _) (ix2 a u)).trans ?_
  refine congrArg (v (ix2 a u) + ·) ?_
  refine (col_of_row _ a u).trans ?_
  refine (lane_sum _ _ _ a).trans ?_
  exact Finset.sum_congr rfl fun k _ => congrFun (shapeCast_self x _) (ix2 a k)

/-- The second operand's accumulator update at row a. -/
theorem acc_second (y : Vec Ideal S8x131072 .f32) (v : Vec Ideal S8x1 .f32) (a : Fin 8) (u : Fin 1) :
    k0_pay10 (F := Ideal) y v (ix2 a u) = v (ix2 a u) + ∑ k : Fin 131072, y (ix2 a k) := by
  unfold k0_pay10 k0_pay8
  dsimp only
  refine (congrFun (shapeCast_self _ _) (ix2 a u)).trans ?_
  refine congrArg (v (ix2 a u) + ·) ?_
  refine (col_of_row _ a u).trans ?_
  refine (lane_sum _ _ _ a).trans ?_
  exact Finset.sum_congr rfl fun k _ => congrFun (shapeCast_self y _) (ix2 a k)

/-- The product's accumulator update at row a: what it held plus the row sum of the elementwise product. -/
theorem acc_product (x y : Vec Ideal S8x131072 .f32) (v : Vec Ideal S8x1 .f32) (a : Fin 8) (u : Fin 1) :
    k0_pay11 (F := Ideal) x y v (ix2 a u) = v (ix2 a u) + ∑ k : Fin 131072, x (ix2 a k) * y (ix2 a k) := by
  unfold k0_pay11 k0_pay7 k0_pay8
  dsimp only
  refine (congrFun (shapeCast_self _ _) (ix2 a u)).trans ?_
  refine congrArg (v (ix2 a u) + ·) ?_
  refine (col_of_row _ a u).trans ?_
  refine (lane_sum _ _ _ a).trans ?_
  exact Finset.sum_congr rfl fun k _ => by
    show shapeCast S8x131072 x _ (ix2 a k) * shapeCast S8x131072 y _ (ix2 a k) = _
    rw [shapeCast_self, shapeCast_self]

/-- The reset value of the first accumulator: the zero word at every element. -/
theorem zero_first (j : S8x1.Idx) : k0_pay4 (F := Ideal) j = Scalar.ofBits (F := Ideal) .f32 0x00000000#32 := by
  unfold k0_pay4
  exact congrFun (shapeCast_self _ _) j

/-- The reset value of the second accumulator. -/
theorem zero_second (j : S8x1.Idx) : k0_pay5 (F := Ideal) j = Scalar.ofBits (F := Ideal) .f32 0x00000000#32 := by
  unfold k0_pay5
  exact congrFun (shapeCast_self _ _) j

/-- The reset value of the product's accumulator. -/
theorem zero_product (j : S8x1.Idx) : k0_pay6 (F := Ideal) j = Scalar.ofBits (F := Ideal) .f32 0x00000000#32 := by
  unfold k0_pay6
  exact congrFun (shapeCast_self _ _) j

/-- The first output block at (a, l) is the accumulator column's entry at row a, whatever the lane l. -/
theorem lanes_first (v : Vec Ideal S8x1 .f32) (a : Fin 8) (l : Fin 128) :
    k0_pay1 (F := Ideal) v (ix2 a l) = v (ix2 a 0) := by
  unfold k0_pay1
  refine (broadcastTo_apply _ _ (ix2 a l) (ix2 a 0) (fun d => by
    match d with
    | ⟨0, _⟩ => rfl
    | ⟨1, _⟩ => rfl)).trans ?_
  exact congrFun (shapeCast_self v _) (ix2 a 0)

/-- The second output block at (a, l). -/
theorem lanes_second (v : Vec Ideal S8x1 .f32) (a : Fin 8) (l : Fin 128) :
    k0_pay2 (F := Ideal) v (ix2 a l) = v (ix2 a 0) := by
  unfold k0_pay2
  refine (broadcastTo_apply _ _ (ix2 a l) (ix2 a 0) (fun d => by
    match d with
    | ⟨0, _⟩ => rfl
    | ⟨1, _⟩ => rfl)).trans ?_
  exact congrFun (shapeCast_self v _) (ix2 a 0)

/-- The third output block at (a, l). -/
theorem lanes_product (v : Vec Ideal S8x1 .f32) (a : Fin 8) (l : Fin 128) :
    k0_pay3 (F := Ideal) v (ix2 a l) = v (ix2 a 0) := by
  unfold k0_pay3
  refine (broadcastTo_apply _ _ (ix2 a l) (ix2 a 0) (fun d => by
    match d with
    | ⟨0, _⟩ => rfl
    | ⟨1, _⟩ => rfl)).trans ?_
  exact congrFun (shapeCast_self v _) (ix2 a 0)

end Cert.KernelIdeal.LaneSums

end
-- ==== Proof.LibSumHalves.lean ====
/-
  A general lemma on finite sums over the extended reals, free of any program.

  A reduction that is carried out in two halves, each half added in turn onto a running value, gives the running
  value's start plus the whole sum. Addition on the extended reals is associative and commutative with no side
  condition (no subtraction or product is involved), so the regrouping holds at every input, finite or not. It is the
  law that joins a kernel which accumulates a row over two grid points with a reference that sums the row at once.
-/
import Mathlib.Algebra.BigOperators.Fin
import Mathlib.Data.EReal.Basic

namespace Cert.LibSumHalves

open Finset

/-- A sum over N = n + n indices, taken as the first n then the last n, each half added in turn onto a starting
    value z, is z plus the whole sum. Here g and h are the two halves of f: g k = f k and h k = f (n + k). -/
theorem sum_two_halves {N n : ℕ} (hN : N = n + n) (f : Fin N → EReal) (g h : Fin n → EReal)
    (hg : ∀ k : Fin n, g k = f ⟨k.val, by omega⟩) (hh : ∀ k : Fin n, h k = f ⟨n + k.val, by omega⟩) (z : EReal) :
    (z + ∑ k, g k) + ∑ k, h k = z + ∑ k, f k := by
  subst hN
  rw [Fin.sum_univ_add, add_assoc]
  congr 2
  · exact Finset.sum_congr rfl fun k _ => hg k
  · exact Finset.sum_congr rfl fun k _ => hh k

end Cert.LibSumHalves
-- ==== Proof.RowTotals.lean ====
/-
  What the second point of a row chunk writes, element by element, in terms of the whole operand arrays.

  Write P and T for the two operands as the region finds them: arrays of 64 rows by 262144 lanes. Point t reads rows
  8 * (t / 2) .. 8 * (t / 2) + 7 and lanes 131072 * (t % 2) .. 131072 * (t % 2) + 131071 of each. An odd point t and the
  even point before it therefore read the two halves of the same eight rows, and the value the odd point writes at
  (a, l) of an output block is, for row r = 8 * (t / 2) + a,

      (zero + sum of the first half of row r) + sum of the second half of row r  =  zero + sum of all of row r,

  the same for every lane l, for P, for T and for the elementwise product P * T. The last step is the grouping law of
  LibSumHalves.lean; it holds on the extended reals without any finiteness assumption.
-/
import proofs.«100748_j24386824307351_1_alg».proof.Proof.Chunks
import proofs.«100748_j24386824307351_1_alg».proof.Proof.LaneSums
import proofs.«100748_j24386824307351_1_alg».proof.Proof.LibSumHalves

noncomputable section

open Idealize.ShloMosaic Idealize.ShloMosaic.TcCoe Idealize.SL.Sem Idealize.ShloMosaic.ValueIdx

namespace Cert.KernelIdeal.RowTotals

open Cert.KernelIdeal Cert.KernelIdeal.Gen Cert.KernelIdeal.Chunks

variable (m : (ℓ : Loc nD τ sig) → Buf (Elt Ideal) ℓ)

/-- The first operand as the region finds it: the first argument reshaped to 64 rows of 262144 lanes. -/
abbrev parr (c : Dev nD) : FVec Ideal S64x262144 .f32 := V m c main_v0
/-- The second operand as the region finds it. -/
abbrev tarr (c : Dev nD) : FVec Ideal S64x262144 .f32 := V m c main_v1

/-- The block index maps over the grid: operand blocks move with (t / 2, t % 2), output blocks with (t / 2, 0). -/
theorem idx_facts : ∀ t : Fin cfg0.N,
    win0_0.index t (0 : Fin 2) = t.val / 2 ∧ win0_0.index t (1 : Fin 2) = t.val % 2
    ∧ win0_1.index t (0 : Fin 2) = t.val / 2 ∧ win0_1.index t (1 : Fin 2) = t.val % 2
    ∧ win0_2.index t (0 : Fin 2) = t.val / 2 ∧ win0_2.index t (1 : Fin 2) = 0
    ∧ win0_3.index t (0 : Fin 2) = t.val / 2 ∧ win0_3.index t (1 : Fin 2) = 0
    ∧ win0_4.index t (0 : Fin 2) = t.val / 2 ∧ win0_4.index t (1 : Fin 2) = 0 :=
  (by decide +kernel : ∀ t : Fin grid0.N, _)

/-- Entry (a, k) of the first operand's block at point t is entry (r, q) of P, with r = 8 * (t / 2) + a and
    q = 131072 * (t % 2) + k. -/
theorem pblk_apply (c : Dev nD) (t : Fin cfg0.N) (a : Fin 8) (k : Fin 131072) (r : Fin 64) (q : Fin 262144)
    (hr : r.val = t.val / 2 * 8 + a.val) (hq : q.val = t.val % 2 * 131072 + k.val) :
    pblk m c t (ix2 a k) = parr m c (ix2 r q) := by
  obtain ⟨e0, e1, -⟩ := idx_facts t
  show V m c main_v0 (((cfg0.win 0).blk t).view.emb (ix2 a k)) = V m c main_v0 (ix2 r q)
  refine congrArg _ (funext fun d => Fin.ext ?_)
  match d with
  | ⟨0, _⟩ => show win0_0.index t (0 : Fin 2) * 8 + 1 * a.val = r.val; omega
  | ⟨1, _⟩ => show win0_0.index t (1 : Fin 2) * 131072 + 1 * k.val = q.val; omega

/-- The same for the second operand. -/
theorem tblk_apply (c : Dev nD) (t : Fin cfg0.N) (a : Fin 8) (k : Fin 131072) (r : Fin 64) (q : Fin 262144)
    (hr : r.val = t.val / 2 * 8 + a.val) (hq : q.val = t.val % 2 * 131072 + k.val) :
    tblk m c t (ix2 a k) = tarr m c (ix2 r q) := by
  obtain ⟨-, -, e0, e1, -⟩ := idx_facts t
  show V m c main_v1 (((cfg0.win 1).blk t).view.emb (ix2 a k)) = V m c main_v1 (ix2 r q)
  refine congrArg _ (funext fun d => Fin.ext ?_)
  match d with
  | ⟨0, _⟩ => show win0_1.index t (0 : Fin 2) * 8 + 1 * a.val = r.val; omega
  | ⟨1, _⟩ => show win0_1.index t (1 : Fin 2) * 131072 + 1 * k.val = q.val; omega

/-- The total of row r of a 64 by 262144 array, started from the zero word. -/
def rowTotal (X : FVec Ideal S64x262144 .f32) (r : Fin 64) : EReal :=
  Scalar.ofBits (F := Ideal) .f32 0x00000000#32 + ∑ q : Fin 262144, X (ix2 r q)

/-- The first output block written at an odd point holds, on every lane of row a, the total of row r of P. -/
theorem first_output (c : Dev nD) (t : Fin cfg0.N) (h1 : t.val % 2 = 1) (a : Fin 8) (l : Fin 128) (r : Fin 64)
    (hr : r.val = t.val / 2 * 8 + a.val) :
    (outsAt0 m c t.val t.isLt).1 (ix2 a l) = rowTotal (parr m c) r := by
  have hN : cfg0.N = 16 := N_0
  have ht := t.isLt
  obtain ⟨t', ht'⟩ : ∃ t' : Fin cfg0.N, t'.val = t.val - 1 := ⟨⟨t.val - 1, by omega⟩, rfl⟩
  obtain ⟨o2, -, -⟩ := chunk_outputs m c t t' h1 ht'
  rw [o2]
  have e0 : k0_pay1 (F := Ideal) (k0_pay9 (pblk m c t) (k0_pay9 (pblk m c t') (k0_pay4 (F := Ideal)))) (ix2 a l)
      = k0_pay9 (pblk m c t) (k0_pay9 (pblk m c t') (k0_pay4 (F := Ideal))) (ix2 a 0) :=
    LaneSums.lanes_first (k0_pay9 (pblk m c t) (k0_pay9 (pblk m c t') (k0_pay4 (F := Ideal)))) a l
  have e1 : k0_pay9 (F := Ideal) (pblk m c t) (k0_pay9 (pblk m c t') (k0_pay4 (F := Ideal))) (ix2 a 0)
      = k0_pay9 (pblk m c t') (k0_pay4 (F := Ideal)) (ix2 a 0) + ∑ k : Fin 131072, pblk m c t (ix2 a k) :=
    LaneSums.acc_first (pblk m c t) (k0_pay9 (pblk m c t') (k0_pay4 (F := Ideal))) a 0
  have e2 : k0_pay9 (F := Ideal) (pblk m c t') (k0_pay4 (F := Ideal)) (ix2 a 0)
      = k0_pay4 (F := Ideal) (ix2 a 0) + ∑ k : Fin 131072, pblk m c t' (ix2 a k) :=
    LaneSums.acc_first (pblk m c t') (k0_pay4 (F := Ideal)) a 0
  have e3 : k0_pay4 (F := Ideal) (ix2 a 0) = Scalar.ofBits (F := Ideal) .f32 0x00000000#32 :=
    LaneSums.zero_first (ix2 a 0)
  rw [e0, e1, e2, e3]
  exact LibSumHalves.sum_two_halves (N := 262144) (n := 131072) rfl (fun q => parr m c (ix2 r q))
    (fun k => pblk m c t' (ix2 a k)) (fun k => pblk m c t (ix2 a k))
    (fun k => pblk_apply m c t' a k r ⟨k.val, by omega⟩ (by rw [ht']; omega) (by rw [ht']; show k.val = _; omega))
    (fun k => pblk_apply m c t a k r ⟨131072 + k.val, by omega⟩ hr (by show 131072 + k.val = _; omega)) _

/-- The second output block written at an odd point holds, on every lane of row a, the total of row r of T. -/
theorem second_output (c : Dev nD) (t : Fin cfg0.N) (h1 : t.val % 2 = 1) (a : Fin 8) (l : Fin 128) (r : Fin 64)
    (hr : r.val = t.val / 2 * 8 + a.val) :
    (outsAt0 m c t.val t.isLt).2.1 (ix2 a l) = rowTotal (tarr m c) r := by
  have hN : cfg0.N = 16 := N_0
  have ht := t.isLt
  obtain ⟨t', ht'⟩ : ∃ t' : Fin cfg0.N, t'.val = t.val - 1 := ⟨⟨t.val - 1, by omega⟩, rfl⟩
  obtain ⟨-, o3, -⟩ := chunk_outputs m c t t' h1 ht'
  rw [o3]
  have e0 : k0_pay2 (F := Ideal) (k0_pay10 (tblk m c t) (k0_pay10 (tblk m c t') (k0_pay5 (F := Ideal)))) (ix2 a l)
      = k0_pay10 (tblk m c t) (k0_pay10 (tblk m c t') (k0_pay5 (F := Ideal))) (ix2 a 0) :=
    LaneSums.lanes_second (k0_pay10 (tblk m c t) (k0_pay10 (tblk m c t') (k0_pay5 (F := Ideal)))) a l
  have e1 : k0_pay10 (F := Ideal) (tblk m c t) (k0_pay10 (tblk m c t') (k0_pay5 (F := Ideal))) (ix2 a 0)
      = k0_pay10 (tblk m c t') (k0_pay5 (F := Ideal)) (ix2 a 0) + ∑ k : Fin 131072, tblk m c t (ix2 a k) :=
    LaneSums.acc_second (tblk m c t) (k0_pay10 (tblk m c t') (k0_pay5 (F := Ideal))) a 0
  have e2 : k0_pay10 (F := Ideal) (tblk m c t') (k0_pay5 (F := Ideal)) (ix2 a 0)
      = k0_pay5 (F := Ideal) (ix2 a 0) + ∑ k : Fin 131072, tblk m c t' (ix2 a k) :=
    LaneSums.acc_second (tblk m c t') (k0_pay5 (F := Ideal)) a 0
  have e3 : k0_pay5 (F := Ideal) (ix2 a 0) = Scalar.ofBits (F := Ideal) .f32 0x00000000#32 :=
    LaneSums.zero_second (ix2 a 0)
  rw [e0, e1, e2, e3]
  exact LibSumHalves.sum_two_halves (N := 262144) (n := 131072) rfl (fun q => tarr m c (ix2 r q))
    (fun k => tblk m c t' (ix2 a k)) (fun k => tblk m c t (ix2 a k))
    (fun k => tblk_apply m c t' a k r ⟨k.val, by omega⟩ (by rw [ht']; omega) (by rw [ht']; show k.val = _; omega))
    (fun k => tblk_apply m c t a k r ⟨131072 + k.val, by omega⟩ hr (by show 131072 + k.val = _; omega)) _

/-- The third output block written at an odd point holds, on every lane of row a, the total of row r of P * T. -/
theorem product_output (c : Dev nD) (t : Fin cfg0.N) (h1 : t.val % 2 = 1) (a : Fin 8) (l : Fin 128) (r : Fin 64)
    (hr : r.val = t.val / 2 * 8 + a.val) :
    (outsAt0 m c t.val t.isLt).2.2.1 (ix2 a l) = rowTotal (mulf (parr m c) (tarr m c)) r := by
  have hN : cfg0.N = 16 := N_0
  have ht := t.isLt
  obtain ⟨t', ht'⟩ : ∃ t' : Fin cfg0.N, t'.val = t.val - 1 := ⟨⟨t.val - 1, by omega⟩, rfl⟩
  obtain ⟨-, -, o4⟩ := chunk_outputs m c t t' h1 ht'
  rw [o4]
  have e0 : k0_pay3 (F := Ideal)
        (k0_pay11 (pblk m c t) (tblk m c t) (k0_pay11 (pblk m c t') (tblk m c t') (k0_pay6 (F := Ideal)))) (ix2 a l)
      = k0_pay11 (pblk m c t) (tblk m c t) (k0_pay11 (pblk m c t') (tblk m c t') (k0_pay6 (F := Ideal))) (ix2 a 0) :=
    LaneSums.lanes_product
      (k0_pay11 (pblk m c t) (tblk m c t) (k0_pay11 (pblk m c t') (tblk m c t') (k0_pay6 (F := Ideal)))) a l
  have e1 : k0_pay11 (F := Ideal) (pblk m c t) (tblk m c t)
        (k0_pay11 (pblk m c t') (tblk m c t') (k0_pay6 (F := Ideal))) (ix2 a 0)
      = k0_pay11 (pblk m c t') (tblk m c t') (k0_pay6 (F := Ideal)) (ix2 a 0)
        + ∑ k : Fin 131072, pblk m c t (ix2 a k) * tblk m c t (ix2 a k) :=
    LaneSums.acc_product (pblk m c t) (tblk m c t) (k0_pay11 (pblk m c t') (tblk m c t') (k0_pay6 (F := Ideal))) a 0
  have e2 : k0_pay11 (F := Ideal) (pblk m c t') (tblk m c t') (k0_pay6 (F := Ideal)) (ix2 a 0)
      = k0_pay6 (F := Ideal) (ix2 a 0) + ∑ k : Fin 131072, pblk m c t' (ix2 a k) * tblk m c t' (ix2 a k) :=
    LaneSums.acc_product (pblk m c t') (tblk m c t') (k0_pay6 (F := Ideal)) a 0
  have e3 : k0_pay6 (F := Ideal) (ix2 a 0) = Scalar.ofBits (F := Ideal) .f32 0x00000000#32 :=
    LaneSums.zero_product (ix2 a 0)
  rw [e0, e1, e2, e3]
  exact LibSumHalves.sum_two_halves (N := 262144) (n := 131072) rfl (fun q => mulf (parr m c) (tarr m c) (ix2 r q))
    (fun k => pblk m c t' (ix2 a k) * tblk m c t' (ix2 a k)) (fun k => pblk m c t (ix2 a k) * tblk m c t (ix2 a k))
    (fun k => by
      show pblk m c t' (ix2 a k) * tblk m c t' (ix2 a k) = parr m c (ix2 r ⟨k.val, by omega⟩) * tarr m c (ix2 r ⟨k.val, by omega⟩)
      rw [pblk_apply m c t' a k r ⟨k.val, by omega⟩ (by rw [ht']; omega) (by rw [ht']; show k.val = _; omega),
        tblk_apply m c t' a k r ⟨k.val, by omega⟩ (by rw [ht']; omega) (by rw [ht']; show k.val = _; omega)])
    (fun k => by
      show pblk m c t (ix2 a k) * tblk m c t (ix2 a k)
        = parr m c (ix2 r ⟨131072 + k.val, by omega⟩) * tarr m c (ix2 r ⟨131072 + k.val, by omega⟩)
      rw [pblk_apply m c t a k r ⟨131072 + k.val, by omega⟩ hr (by show 131072 + k.val = _; omega),
        tblk_apply m c t a k r ⟨131072 + k.val, by omega⟩ hr (by show 131072 + k.val = _; omega)]) _

end Cert.KernelIdeal.RowTotals

end
-- ==== Proof.Outputs.lean ====
/-
  The three output arrays after the region.

  Each output array has 64 rows by 128 lanes; output block t / 2 (eight rows, all 128 lanes) is written back once, at
  the odd point t, and the eight written blocks tile the 64 rows. By RowTotals.lean the block written at an odd point
  holds, on every lane of its row a, the total of row 8 * (t / 2) + a of the operand: so each array ends holding, on
  every lane of row r, the total of row r (of P, of T, of P * T).
-/
import proofs.«100748_j24386824307351_1_alg».proof.Proof.RowTotals

noncomputable section

open Idealize.ShloMosaic Idealize.ShloMosaic.TcCoe Idealize.SL.Sem Idealize.ShloMosaic.ValueIdx
open Idealize.ShloMosaic.Pipeline (Dat)

namespace Cert.KernelIdeal.Outputs

open Cert.KernelIdeal Cert.KernelIdeal.Gen Cert.KernelIdeal.RowTotals

variable (m : (ℓ : Loc nD τ sig) → Buf (Elt Ideal) ℓ) (ρ : Dev nD → PrngReg)

/-- The vector of the 64 row totals of X. -/
abbrev rowTotals (X : FVec Ideal S64x262144 .f32) : FVec Ideal S64 .f32 := fun j => rowTotal X (j 0)

/-- The 64 by 128 array whose every lane of row r holds the total of row r of X. -/
abbrev spread (X : FVec Ideal S64x262144 .f32) : FVec Ideal S64x128 .f32 := fun i => rowTotal X (i 0)

/-! ## The first output array: row totals of P -/

/-- What an odd point writes back to the first output is its block of the spread row totals of P. -/
theorem flushed2_eq (c : Dev nD) (t : Fin cfg0.N) (hf : (cfg0.win 2).flush t = true) :
    (dats m 0 c).flushed 2 t = ((cfg0.win 2).blk t).view.read (Elt Ideal) (spread (parr m c)) := by
  have h1 : t.val % 2 = 1 := (flush0_2 t).mp hf
  obtain ⟨-, -, -, -, e0, e1, -⟩ := idx_facts t
  show (cfg0.win 2).cut (grid0.coords t) ((dats m 0 c).after 2 t) = _
  rw [after0_2]
  funext j
  show (outsAt0 m c t.val t.isLt).1 j = rowTotal (parr m c) ((((cfg0.win 2).blk t).view.emb j) 0)
  refine (congrArg (outsAt0 m c t.val t.isLt).1 (eq_ix2 j)).trans ?_
  refine first_output m c t h1 (j 0) (j 1) _ ?_
  show win0_2.index t (0 : Fin 2) * 8 + 1 * (j 0).val = t.val / 2 * 8 + (j 0).val
  omega

/-- Row r of the first output lies in the block written at point 2 * (r / 8) + 1. -/
theorem cover2 (i : S64x128.Idx) :
    ∃ t : Fin cfg0.N, (cfg0.win 2).flush t = true ∧ i ∈ ((cfg0.win 2).blk t).view.set := by
  have hN : cfg0.N = 16 := N_0
  have hi0 : (i 0).val < 64 := (i 0).isLt
  have hi1 : (i 1).val < 128 := (i 1).isLt
  obtain ⟨t, ht⟩ : ∃ t : Fin cfg0.N, t.val = 2 * ((i 0).val / 8) + 1 := ⟨⟨2 * ((i 0).val / 8) + 1, by omega⟩, rfl⟩
  obtain ⟨-, -, -, -, e0, e1, -⟩ := idx_facts t
  refine ⟨t, (flush0_2 t).mpr (by omega), ?_⟩
  show i ∈ ((View.whole main_v2_0).slice (win0_2.rect t)).set
  rw [View.set_slice_whole, Rect.mem_set_unit]
  intro a
  match a with
  | ⟨0, _⟩ =>
    show win0_2.index t (0 : Fin 2) * 8 ≤ (i 0).val ∧ (i 0).val < win0_2.index t (0 : Fin 2) * 8 + 8
    omega
  | ⟨1, _⟩ =>
    show win0_2.index t (1 : Fin 2) * 128 ≤ (i 1).val ∧ (i 1).val < win0_2.index t (1 : Fin 2) * 128 + 128
    omega

/-- The first output array after the region. -/
theorem final2 (c : Dev nD) : (dats m 0 c).arrAt 2 cfg0.N = spread (parr m c) :=
  (dats m 0 c).arrAt_eq_of_cover 2 (spread (parr m c)) (flushed2_eq m c) cover2

/-! ## The second output array: row totals of T -/

theorem flushed3_eq (c : Dev nD) (t : Fin cfg0.N) (hf : (cfg0.win 3).flush t = true) :
    (dats m 0 c).flushed 3 t = ((cfg0.win 3).blk t).view.read (Elt Ideal) (spread (tarr m c)) := by
  have h1 : t.val % 2 = 1 := (flush0_3 t).mp hf
  obtain ⟨-, -, -, -, -, -, e0, e1, -⟩ := idx_facts t
  show (cfg0.win 3).cut (grid0.coords t) ((dats m 0 c).after 3 t) = _
  rw [after0_3]
  funext j
  show (outsAt0 m c t.val t.isLt).2.1 j = rowTotal (tarr m c) ((((cfg0.win 3).blk t).view.emb j) 0)
  refine (congrArg (outsAt0 m c t.val t.isLt).2.1 (eq_ix2 j)).trans ?_
  refine second_output m c t h1 (j 0) (j 1) _ ?_
  show win0_3.index t (0 : Fin 2) * 8 + 1 * (j 0).val = t.val / 2 * 8 + (j 0).val
  omega

theorem cover3 (i : S64x128.Idx) :
    ∃ t : Fin cfg0.N, (cfg0.win 3).flush t = true ∧ i ∈ ((cfg0.win 3).blk t).view.set := by
  have hN : cfg0.N = 16 := N_0
  have hi0 : (i 0).val < 64 := (i 0).isLt
  have hi1 : (i 1).val < 128 := (i 1).isLt
  obtain ⟨t, ht⟩ : ∃ t : Fin cfg0.N, t.val = 2 * ((i 0).val / 8) + 1 := ⟨⟨2 * ((i 0).val / 8) + 1, by omega⟩, rfl⟩
  obtain ⟨-, -, -, -, -, -, e0, e1, -⟩ := idx_facts t
  refine ⟨t, (flush0_3 t).mpr (by omega), ?_⟩
  show i ∈ ((View.whole main_v2_1).slice (win0_3.rect t)).set
  rw [View.set_slice_whole, Rect.mem_set_unit]
  intro a
  match a with
  | ⟨0, _⟩ =>
    show win0_3.index t (0 : Fin 2) * 8 ≤ (i 0).val ∧ (i 0).val < win0_3.index t (0 : Fin 2) * 8 + 8
    omega
  | ⟨1, _⟩ =>
    show win0_3.index t (1 : Fin 2) * 128 ≤ (i 1).val ∧ (i 1).val < win0_3.index t (1 : Fin 2) * 128 + 128
    omega

/-- The second output array after the region. -/
theorem final3 (c : Dev nD) : (dats m 0 c).arrAt 3 cfg0.N = spread (tarr m c) :=
  (dats m 0 c).arrAt_eq_of_cover 3 (spread (tarr m c)) (flushed3_eq m c) cover3

/-! ## The third output array: row totals of P * T -/

theorem flushed4_eq (c : Dev nD) (t : Fin cfg0.N) (hf : (cfg0.win 4).flush t = true) :
    (dats m 0 c).flushed 4 t
      = ((cfg0.win 4).blk t).view.read (Elt Ideal) (spread (mulf (parr m c) (tarr m c))) := by
  have h1 : t.val % 2 = 1 := (flush0_4 t).mp hf
  obtain ⟨-, -, -, -, -, -, -, -, e0, e1⟩ := idx_facts t
  show (cfg0.win 4).cut (grid0.coords t) ((dats m 0 c).after 4 t) = _
  rw [after0_4]
  funext j
  show (outsAt0 m c t.val t.isLt).2.2.1 j
    = rowTotal (mulf (parr m c) (tarr m c)) ((((cfg0.win 4).blk t).view.emb j) 0)
  refine (congrArg (outsAt0 m c t.val t.isLt).2.2.1 (eq_ix2 j)).trans ?_
  refine product_output m c t h1 (j 0) (j 1) _ ?_
  show win0_4.index t (0 : Fin 2) * 8 + 1 * (j 0).val = t.val / 2 * 8 + (j 0).val
  omega

theorem cover4 (i : S64x128.Idx) :
    ∃ t : Fin cfg0.N, (cfg0.win 4).flush t = true ∧ i ∈ ((cfg0.win 4).blk t).view.set := by
  have hN : cfg0.N = 16 := N_0
  have hi0 : (i 0).val < 64 := (i 0).isLt
  have hi1 : (i 1).val < 128 := (i 1).isLt
  obtain ⟨t, ht⟩ : ∃ t : Fin cfg0.N, t.val = 2 * ((i 0).val / 8) + 1 := ⟨⟨2 * ((i 0).val / 8) + 1, by omega⟩, rfl⟩
  obtain ⟨-, -, -, -, -, -, -, -, e0, e1⟩ := idx_facts t
  refine ⟨t, (flush0_4 t).mpr (by omega), ?_⟩
  show i ∈ ((View.whole main_v2_2).slice (win0_4.rect t)).set
  rw [View.set_slice_whole, Rect.mem_set_unit]
  intro a
  match a with
  | ⟨0, _⟩ =>
    show win0_4.index t (0 : Fin 2) * 8 ≤ (i 0).val ∧ (i 0).val < win0_4.index t (0 : Fin 2) * 8 + 8
    omega
  | ⟨1, _⟩ =>
    show win0_4.index t (1 : Fin 2) * 128 ≤ (i 1).val ∧ (i 1).val < win0_4.index t (1 : Fin 2) * 128 + 128
    omega

/-- The third output array after the region. -/
theorem final4 (c : Dev nD) : (dats m 0 c).arrAt 4 cfg0.N = spread (mulf (parr m c) (tarr m c)) :=
  (dats m 0 c).arrAt_eq_of_cover 4 (spread (mulf (parr m c) (tarr m c))) (flushed4_eq m c) cover4

end Cert.KernelIdeal.Outputs

end
-- ==== Proof.Loss.lean ====
/-
  The host arithmetic after the kernel, as one function of the three per-row vectors.

  After the kernel region the program keeps lane 0 of each of the three output arrays (a slice of one column, re-laid
  as a vector of 64), and from the three vectors P, T, I so obtained computes, row by row,
      dice = (2 * I + 1) / (P + T + 1),   loss = 1 - dice   or, where T = 0,   P / 262144,
  and returns the sum of the 64 row losses divided by 64. The definition below spells that computation with exactly the
  operations the program prints, so that "the program's result is this function of the three lanes" is a computation
  on the list of host operations, and nothing about the arithmetic itself ever has to be opened: the reference ends in
  the same operations.
-/
import proofs.«100748_j24386824307351_1_alg».proof.Proof.Gen.KernelIdeal.Frame
import Idealize.ShloMosaic.Lib.StableHlo.Run
import Idealize.ShloMosaic.Lib.Pipeline.Value

noncomputable section

open Idealize.ShloMosaic Idealize.ShloMosaic.TcCoe Idealize.SL.Sem

namespace Cert.KernelIdeal.Loss

open Cert.KernelIdeal Cert.KernelIdeal.Gen

variable {F : FTy → Type} [FloatOps F]

/-- Lane 0 of a 64 by 128 array, as a vector of 64. -/
abbrev lane0 (o : FVec F S64x128 .f32) : FVec F S64 .f32 :=
  shapeCast S64 (extractStridedSlice S64x1 ![0, 0] o slices_S64x128_S64x1_0_0) shapeCasts_S64x1_S64

/-- The scalar the program returns, from the per-row totals P (first operand), T (second operand) and I (product). -/
def loss (P T I : FVec F S64 .f32) : FVec F S_ .f32 :=
  Host.divf
    (Host.reduceAdd
      (select (cmpf .oeq T (broadcastInDim S64 ![] bcast_S_S64 (constant S_ .f32 0x00000000#32)))
        (Host.divf P (broadcastInDim S64 ![] bcast_S_S64 (constant S_ .f32 0x48800000#32)))
        (subf (broadcastInDim S64 ![] bcast_S_S64 (constant S_ .f32 0x3F800000#32))
          (Host.divf
            (addf (mulf (broadcastInDim S64 ![] bcast_S_S64 (constant S_ .f32 0x40000000#32)) I)
              (broadcastInDim S64 ![] bcast_S_S64 (constant S_ .f32 0x3F800000#32)))
            (addf (addf P T) (broadcastInDim S64 ![] bcast_S_S64 (constant S_ .f32 0x3F800000#32))))))
      (constant S_ .f32 0x00000000#32) reducesTo_S64_S_d0 h_S_)
    (constant S_ .f32 0x42800000#32)

set_option maxHeartbeats 2000000 in
/-- The 31 host operations after the region, run from any contents W of the buffers, leave in the result buffer the
    loss of lane 0 of the three output arrays as W holds them. -/
theorem tail_after (W : Valuation τ sig (Elt F)) :
    StableHlo.after (List.flatten [hostOps1, hostOps1_1, hostOps1_2]) W (Proc.devRef .tc main_v25)
      = loss (lane0 (W (Proc.devRef .tc main_v2_0))) (lane0 (W (Proc.devRef .tc main_v2_1)))
          (lane0 (W (Proc.devRef .tc main_v2_2))) := by
  simp only [hostOps1, hostOps1_1, hostOps1_2, List.flatten_cons, List.flatten_nil, List.append_nil, List.cons_append,
    List.nil_append]
  after_results_simp
  rfl

end Cert.KernelIdeal.Loss

end
-- ==== Proof.Result.lean ====
/-
  The kernel program's result.

  Lane 0 of an output array whose every lane of row r holds the total of row r is the vector of the 64 row totals;
  the host arithmetic after the region (Loss.lean) turns the three such vectors into the scalar the program returns.
-/
import proofs.«100748_j24386824307351_1_alg».proof.Proof.Outputs
import proofs.«100748_j24386824307351_1_alg».proof.Proof.Loss

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.RowTotals Cert.KernelIdeal.Outputs Cert.KernelIdeal.Loss

variable (m : (ℓ : Loc nD τ sig) → Buf (Elt Ideal) ℓ) (ρ : Dev nD → PrngReg)

/-- Lane 0 of a 64 by 128 array at row j is its entry (j, 0): the column of 64 by 1 re-laid as a vector of 64 keeps the
    row-major position, and the slice keeps column 0 of every row. -/
theorem lane0_apply (o : FVec Ideal S64x128 .f32) (j : S64.Idx) : lane0 o j = o (ix2 (j 0) (0 : Fin 128)) := by
  have h1 : shapeCast S64 (extractStridedSlice S64x1 ![0, 0] o slices_S64x128_S64x1_0_0) shapeCasts_S64x1_S64 j
      = extractStridedSlice S64x1 ![0, 0] o slices_S64x128_S64x1_0_0 (ix2 (j 0) (0 : Fin 1)) :=
    shapeCast_apply (extractStridedSlice S64x1 ![0, 0] o slices_S64x128_S64x1_0_0) shapeCasts_S64x1_S64 j
      (ix2 (j 0) (0 : Fin 1)) (by
        rw [Shape.rowMajor_val_two, Shape.rowMajor_val_one]
        show (j 0).val * 1 + 0 = (j 0).val
        omega)
  refine h1.trans ?_
  unfold extractStridedSlice
  exact congrArg o (funext fun a => Fin.ext (by
    match a with
    | ⟨0, _⟩ => show 0 + (j 0).val = (j 0).val; omega
    | ⟨1, _⟩ => rfl))

/-- Lane 0 of the spread row totals is the vector of row totals. -/
theorem lane0_spread (X : FVec Ideal S64x262144 .f32) : lane0 (spread X) = rowTotals X :=
  funext fun j => lane0_apply (spread X) j

/-- The host operations after the region, run from any buffer contents W that hold the spread row totals of P, of T
    and of P * T in the three output arrays, leave the loss of the three vectors of row totals in the result buffer. -/
theorem result_of_arrays (W : Valuation τ sig (Elt Ideal)) (P T : FVec Ideal S64x262144 .f32)
    (h2 : (W (Proc.devRef .tc main_v2_0) : FVec Ideal S64x128 .f32) = spread P)
    (h3 : (W (Proc.devRef .tc main_v2_1) : FVec Ideal S64x128 .f32) = spread T)
    (h4 : (W (Proc.devRef .tc main_v2_2) : FVec Ideal S64x128 .f32) = spread (mulf P T)) :
    StableHlo.after (List.flatten [hostOps1, hostOps1_1, hostOps1_2]) W (Proc.devRef .tc main_v25)
      = loss (rowTotals P) (rowTotals T) (rowTotals (mulf P T)) := by
  rw [tail_after, h2, h3, h4, lane0_spread, lane0_spread, lane0_spread]

/-- The result buffer after the whole program: the region leaves the three output arrays at the spread row totals
    (Outputs.lean), every other buffer as it found it. -/
theorem result_eq (c : Dev nD) :
    Pipeline.afterTail₀ cfgs (dats m) 0 (V0 m) [hostOps1, hostOps1_1, hostOps1_2] c main_v25
      = loss (rowTotals (parr m c)) (rowTotals (tarr m c)) (rowTotals (mulf (parr m c) (tarr m c))) := by
  unfold Pipeline.afterTail₀
  refine result_of_arrays _ (parr m c) (tarr m c) ?_ ?_ ?_
  · exact (Pipeline.withArrays_arr spec0 launch0.win.arr_inj c (V0 m c) _ 2).trans (final2 m c)
  · exact (Pipeline.withArrays_arr spec0 launch0.win.arr_inj c (V0 m c) _ 3).trans (final3 m c)
  · exact (Pipeline.withArrays_arr spec0 launch0.win.arr_inj c (V0 m c) _ 4).trans (final4 m c)

/-- The kernel program's run, read: the result at the loss of the row totals, the two arguments unchanged. -/
theorem run : θ_run defs (onTc (τ := τ) (main (F := Ideal))) ⟨m, fun _ => 0, ρ⟩ fun r => ∀ c : Dev nD,
      r.2.mem ((c.tc : Thread nD τ).loc main_v25)
        = loss (rowTotals (parr m c)) (rowTotals (tarr m c)) (rowTotals (mulf (parr m c) (tarr m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.RefRows.lean ====
/-
  The reference, read in the kernel's terms.

  The reference re-lays each argument as 64 rows of 262144 lanes, sums each row of the first, of the second and of
  their elementwise product (each sum started from the zero word), and then applies, to the three vectors of row sums,
  the very host arithmetic the kernel program applies after its region. So its result is the same loss function of the
  row totals of the same two re-laid arrays.
-/
import proofs.«100748_j24386824307351_1_alg».proof.Proof.Gen.ReferenceIdeal.Run
import proofs.«100748_j24386824307351_1_alg».proof.Proof.Gen.ReferenceIdeal.Read
import proofs.«100748_j24386824307351_1_alg».proof.Proof.Outputs
import proofs.«100748_j24386824307351_1_alg».proof.Proof.Loss

noncomputable section

open Idealize.ShloMosaic Idealize.ShloMosaic.TcCoe Idealize.SL.Sem Idealize.ShloMosaic.ValueIdx

namespace Cert.ReferenceIdeal.RefRows

open Cert.ReferenceIdeal Cert.ReferenceIdeal.Gen Cert.ReferenceIdeal.Read
open Cert.KernelIdeal.RowTotals (rowTotal)
open Cert.KernelIdeal.Outputs (rowTotals)
open Cert.KernelIdeal.Loss (loss)

/-- The reference's row sums of the first re-laid argument are its row totals. -/
theorem first_rows (x0 : (⟨S64x1x512x512, .f32⟩ : BufTy).Contents (Elt Ideal)) :
    val_main_v3 (F := Ideal) x0 = rowTotals (val_main_v0 (F := Ideal) x0) := by
  funext j
  rw [val_main_v3_apply]
  exact congrArg₂ (· + ·) rfl (Finset.sum_congr rfl fun k _ => congrArg (val_main_v0 (F := Ideal) x0)
    (funext fun a => Fin.ext (by
      match a with
      | ⟨0, _⟩ => rfl
      | ⟨1, _⟩ => rfl)))

/-- The reference's row sums of the second re-laid argument are its row totals. -/
theorem second_rows (x1 : (⟨S64x1x512x512, .f32⟩ : BufTy).Contents (Elt Ideal)) :
    val_main_v2 (F := Ideal) x1 = rowTotals (val_main_v1 (F := Ideal) x1) := by
  funext j
  rw [val_main_v2_apply]
  exact congrArg₂ (· + ·) rfl (Finset.sum_congr rfl fun k _ => congrArg (val_main_v1 (F := Ideal) x1)
    (funext fun a => Fin.ext (by
      match a with
      | ⟨0, _⟩ => rfl
      | ⟨1, _⟩ => rfl)))

/-- The reference's row sums of the elementwise product are the product's row totals. -/
theorem product_rows (x0 x1 : (⟨S64x1x512x512, .f32⟩ : BufTy).Contents (Elt Ideal)) :
    val_main_v5 (F := Ideal) x0 x1 = rowTotals (mulf (val_main_v0 (F := Ideal) x0) (val_main_v1 (F := Ideal) x1)) := by
  funext j
  rw [val_main_v5_apply]
  exact congrArg₂ (· + ·) rfl (Finset.sum_congr rfl fun k _ => congrArg (val_main_v4 (F := Ideal) x0 x1)
    (funext fun a => Fin.ext (by
      match a with
      | ⟨0, _⟩ => rfl
      | ⟨1, _⟩ => rfl)))

/-- The reference's result is the loss of the three vectors of row sums: its last operations are the kernel
    program's, one for one. -/
theorem result_as_loss (x0 x1 : (⟨S64x1x512x512, .f32⟩ : BufTy).Contents (Elt Ideal)) :
    (val_main_v22 (F := Ideal) x0 x1 : FVec Ideal Cert.KernelIdeal.S_ .f32)
      = loss (F := Ideal) (val_main_v3 (F := Ideal) x0) (val_main_v2 (F := Ideal) x1) (val_main_v5 (F := Ideal) x0 x1) :=
  rfl

/-- The reference's result in the kernel's terms. -/
theorem result_eq (x0 x1 : (⟨S64x1x512x512, .f32⟩ : BufTy).Contents (Elt Ideal)) :
    (val_main_v22 (F := Ideal) x0 x1 : FVec Ideal Cert.KernelIdeal.S_ .f32)
      = loss (F := Ideal) (rowTotals (val_main_v0 (F := Ideal) x0)) (rowTotals (val_main_v1 (F := Ideal) x1))
          (rowTotals (mulf (val_main_v0 (F := Ideal) x0) (val_main_v1 (F := Ideal) x1))) := by
  rw [result_as_loss, first_rows, second_rows, product_rows]

end Cert.ReferenceIdeal.RefRows

end
-- ==== Proof.Operands.lean ====
/-
  The two operands as the kernel region finds them.

  Before the region the program re-lays each argument, an array of 64 by 1 by 512 by 512, as 64 rows of 262144 lanes
  (a reshape: the row-major order of the elements is kept). These two re-laid arrays are what the region's two input
  windows read, and they are exactly what the reference's own first two operations produce from the same arguments.
-/
import proofs.«100748_j24386824307351_1_alg».proof.Proof.Gen.KernelIdeal.Frame
import Idealize.ShloMosaic.Lib.StableHlo.Run

noncomputable section

open Idealize.ShloMosaic Idealize.ShloMosaic.TcCoe Idealize.SL.Sem

namespace Cert.KernelIdeal.Operands

open Cert.KernelIdeal Cert.KernelIdeal.Gen

variable {F : FTy → Type} [FloatOps F]
variable (m : (ℓ : Loc nD τ sig) → Buf (Elt F) ℓ)

/-- The first operand at the region's entry is the first argument reshaped. -/
theorem first_eq (c : Dev nD) :
    (V m c main_v0 : FVec F S64x262144 .f32)
      = shapeCast S64x262144 (m ((c : Thread nD τ).loc main_arg0)) shapeCasts_S64x1x512x512_S64x262144 := by
  show StableHlo.after hostOps0 (fun b => m (c, b)) (Proc.devRef .tc main_v0) = _
  after_results
  rfl

/-- The second operand at the region's entry is the second argument reshaped. -/
theorem second_eq (c : Dev nD) :
    (V m c main_v1 : FVec F S64x262144 .f32)
      = shapeCast S64x262144 (m ((c : Thread nD τ).loc main_arg1)) shapeCasts_S64x1x512x512_S64x262144 := by
  show StableHlo.after hostOps0 (fun b => m (c, b)) (Proc.devRef .tc main_v1) = _
  after_results
  rfl

end Cert.KernelIdeal.Operands

end
-- ==== Proof.lean ====
/-
  The certificate's claims, assembled.

  The kernel program computes a Dice loss: it re-lays the two arguments as 64 rows of 262144 lanes, and one pipelined
  kernel sums each row of the first, of the second and of their product, half a row per grid point with the partial
  sums carried in three small accumulators; the host then turns the three vectors of row sums into the mean loss. The
  reference does the row sums in one reduction each and ends in the same host arithmetic.

  frame (word level and idealized kernel): the generated frame of the one pipelined region, whole.
  frame (reference): its run, with the value dropped.
  preserves: the idealization rewrote nothing.
  algebraic: the kernel's three output arrays hold the row totals (CaseValues, LaneSums, Chunks, RowTotals, Outputs;
    the only law used is that a sum taken in two halves onto a starting value is the starting value plus the whole
    sum, LibSumHalves: no finiteness needed), lane 0 of each is the vector of row totals and the host tail is one
    function of the three vectors (Loss, Result); the reference's result is the same function of the same row totals
    of the same re-laid arguments (RefRows, Operands).
-/
import proofs.«100748_j24386824307351_1_alg».proof.Defs
import proofs.«100748_j24386824307351_1_alg».proof.Proof.Gen.Kernel
import proofs.«100748_j24386824307351_1_alg».proof.Proof.Gen.Kernel.Skeleton
import proofs.«100748_j24386824307351_1_alg».proof.Proof.Gen.Kernel.Launch
import proofs.«100748_j24386824307351_1_alg».proof.Proof.Gen.Kernel.Points
import proofs.«100748_j24386824307351_1_alg».proof.Proof.Gen.Kernel.Frame
import proofs.«100748_j24386824307351_1_alg».proof.Proof.Gen.KernelIdeal
import proofs.«100748_j24386824307351_1_alg».proof.Proof.Gen.KernelIdeal.Skeleton
import proofs.«100748_j24386824307351_1_alg».proof.Proof.Gen.KernelIdeal.Launch
import proofs.«100748_j24386824307351_1_alg».proof.Proof.Gen.KernelIdeal.Points
import proofs.«100748_j24386824307351_1_alg».proof.Proof.Gen.KernelIdeal.Frame
import proofs.«100748_j24386824307351_1_alg».proof.Proof.Gen.ReferenceIdeal
import proofs.«100748_j24386824307351_1_alg».proof.Proof.Gen.ReferenceIdeal.Run
import proofs.«100748_j24386824307351_1_alg».proof.Proof.Gen.ReferenceIdeal.Read
import proofs.«100748_j24386824307351_1_alg».proof.Proof.Gen.Pre_finite_inputs
import proofs.«100748_j24386824307351_1_alg».proof.Proof.Result
import proofs.«100748_j24386824307351_1_alg».proof.Proof.RefRows
import proofs.«100748_j24386824307351_1_alg».proof.Proof.Operands
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The idealized reference runs and keeps its arguments. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization pass changed no operation. -/
theorem preserves : Cert.preserves_Kernel_KernelIdeal := trivial

/-- From memories that agree on the two arguments both idealized programs end at the loss of the row totals of the two
    re-laid arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefRows.result_eq, (hagree c).1, (hagree c).2]
  show _ = Cert.KernelIdeal.Loss.loss
    (Cert.KernelIdeal.Outputs.rowTotals (Cert.KernelIdeal.Gen.V m c Cert.KernelIdeal.main_v0))
    (Cert.KernelIdeal.Outputs.rowTotals (Cert.KernelIdeal.Gen.V m c Cert.KernelIdeal.main_v1))
    (Cert.KernelIdeal.Outputs.rowTotals
      (mulf (Cert.KernelIdeal.Gen.V m c Cert.KernelIdeal.main_v0) (Cert.KernelIdeal.Gen.V m c Cert.KernelIdeal.main_v1)))
  rw [Cert.KernelIdeal.Operands.first_eq, Cert.KernelIdeal.Operands.second_eq]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
